-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S_ : Shape := ⟨0, ![]⟩
abbrev S100000x128 : Shape := ⟨2, ![100000, 128]⟩
abbrev S128x128 : Shape := ⟨2, ![128, 128]⟩
abbrev S128 : Shape := ⟨1, ![128]⟩
abbrev S1600000 : Shape := ⟨1, ![1600000]⟩

class Facts : Prop where
  reducesTo_S_S_d : S_.ReducesTo [] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v12 : IVec S_ 1) (main_v15 : IVec S128 1) (main_c_5 : IVec S_ 1) : IVec S_ 1 :=
  let main_v16 : IVec S_ 1 := (fun x v => Host.reduce IntOp.andi x v reducesTo_S128_S_d0 h_S_) main_v15 main_c_5
  let main_v17 : IVec S_ 1 := andi main_v12 main_v16
  main_v17

def fn {F : FTy → Type} [FloatOps F] (main_arg0 : FVec F S_ .f32) (main_arg1 : FVec F S100000x128 .f32) (main_arg2 : FVec F S128x128 .f32) (main_arg3 : FVec F S128 .f32) (main_arg4 : IVec S1600000 32) (main_arg5 : IVec S1600000 32) : IVec S_ 1 :=
  let main_v0 : FVec F S_ .f32 := Host.absf main_arg0
  let main_cst : FVec F S_ .f32 := constant S_ .f32 0x7F800000#32
  let main_v1 : IVec S_ 1 := cmpf .olt main_v0 main_cst
  let main_c : IVec S_ 1 := constantI S_ 1 1#1
  let main_v2 : IVec S_ 1 := (fun x v => Host.reduce IntOp.andi x v reducesTo_S_S_d h_S_) main_v1 main_c
  let main_v3 : FVec F S100000x128 .f32 := Host.absf main_arg1
  let main_cst_0 : FVec F S_ .f32 := constant S_ .f32 0x7F800000#32
  let main_v4 : FVec F S100000x128 .f32 := broadcastInDim S100000x128 ![] bcast_S_S100000x128 main_cst_0
  let main_v5 : IVec S100000x128 1 := cmpf .olt main_v3 main_v4
  let main_c_1 : IVec S_ 1 := constantI S_ 1 1#1
  let main_v6 : IVec S_ 1 := (fun x v => Host.reduce IntOp.andi x v reducesTo_S100000x128_S_d0_1 h_S_) main_v5 main_c_1
  let main_v7 : IVec S_ 1 := andi main_v2 main_v6
  let main_v8 : FVec F S128x128 .f32 := Host.absf main_arg2
  let main_cst_2 : FVec F S_ .f32 := constant S_ .f32 0x7F800000#32
  let main_v9 : FVec F S128x128 .f32 := broadcastInDim S128x128 ![] bcast_S_S128x128 main_cst_2
  let main_v10 : IVec S128x128 1 := cmpf .olt main_v8 main_v9
  let main_c_3 : IVec S_ 1 := constantI S_ 1 1#1
  let main_v11 : IVec S_ 1 := (fun x v => Host.reduce IntOp.andi x v reducesTo_S128x128_S_d0_1 h_S_) main_v10 main_c_3
  let main_v12 : IVec S_ 1 := andi main_v7 main_v11
  let main_v13 : FVec F S128 .f32 := Host.absf main_arg3
  let main_cst_4 : FVec F S_ .f32 := constant S_ .f32 0x7F800000#32
  let main_v14 : FVec F S128 .f32 := broadcastInDim S128 ![] bcast_S_S128 main_cst_4
  let main_v15 : IVec S128 1 := cmpf .olt main_v13 main_v14
  let main_c_5 : IVec S_ 1 := constantI S_ 1 1#1
  fn_part1 (F := F) main_v12 main_v15 main_c_5
-- ==== Kernel.lean ====
abbrev S_ : Shape := ⟨0, ![]⟩
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S5000x128 : Shape := ⟨2, ![5000, 128]⟩
abbrev S5000 : Shape := ⟨1, ![5000]⟩
abbrev S5000x1 : Shape := ⟨2, ![5000, 1]⟩
abbrev S1600000x1 : Shape := ⟨2, ![1600000, 1]⟩
abbrev S1600000x128 : Shape := ⟨2, ![1600000, 128]⟩
abbrev S50000x128 : Shape := ⟨2, ![50000, 128]⟩
abbrev S50000 : Shape := ⟨1, ![50000]⟩
abbrev S50000x1 : Shape := ⟨2, ![50000, 1]⟩
abbrev S100000 : Shape := ⟨1, ![100000]⟩
abbrev S100000x1 : Shape := ⟨2, ![100000, 1]⟩
abbrev S1x128 : Shape := ⟨2, ![1, 128]⟩

abbrev nBuf : Space → Nat
  | .hbm => 52
  | .vmem => 12
  | .smem => 0
  | _ => 0

abbrev bufTy : (tb : Table) → Fin (tcTables nBuf tb) → BufTy
  | .hbm, ⟨0, _⟩ => ⟨S_, .f32⟩
  | .hbm, ⟨1, _⟩ => ⟨S100000x128, .f32⟩
  | .hbm, ⟨2, _⟩ => ⟨S128x128, .f32⟩
  | .hbm, ⟨3, _⟩ => ⟨S128, .f32⟩
  | .hbm, ⟨4, _⟩ => ⟨S1600000, .i32⟩
  | .hbm, ⟨5, _⟩ => ⟨S1600000, .i32⟩
  | .hbm, ⟨6, _⟩ => ⟨S100000x128, .f32⟩
  | .hbm, ⟨7, _⟩ => ⟨S_, .f32⟩
  | .hbm, ⟨8, _⟩ => ⟨S1600000, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S_, .f32⟩
  | .hbm, ⟨19, _⟩ => ⟨S50000x128, .f32⟩
  | .hbm, ⟨20, _⟩ => ⟨S1600000x1, .i32⟩
  | .hbm, ⟨21, _⟩ => ⟨S50000x128, .f32⟩
  | .hbm, ⟨22, _⟩ => ⟨S_, .f32⟩
  | .hbm, ⟨23, _⟩ => ⟨S50000, .f32⟩
  | .hbm, ⟨24, _⟩ => ⟨S1600000x1, .i32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S50000x128, .f32⟩
  | .hbm, ⟨31, _⟩ => ⟨S50000x128, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x128, .f32⟩
  | .hbm, ⟨41, _⟩ => ⟨S_, .f32⟩
  | .hbm, ⟨42, _⟩ => ⟨S100000x128, .f32⟩
  | .hbm, ⟨43, _⟩ => ⟨S1600000x1, .i32⟩
  | .hbm, ⟨44, _⟩ => ⟨S100000x128, .f32⟩
  | .hbm, ⟨45, _⟩ => ⟨S_, .f32⟩
  | .hbm, ⟨46, _⟩ => ⟨S100000, .f32⟩
  | .hbm, ⟨47, _⟩ => ⟨S1600000x1, .i32⟩
  | .hbm, ⟨48, _⟩ => ⟨S100000, .f32⟩
  | .hbm, ⟨49, _⟩ => ⟨S100000x1, .f32⟩
  | .hbm, ⟨50, _⟩ => ⟨S1x128, .f32⟩
  | .hbm, ⟨51, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x1, .f32⟩
  | .local _ .vmem, ⟨8, _⟩ => ⟨S5000x1, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | _, _ => ⟨S_, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_c_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_7 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S5000x128_S5000x128_0_0 : ∀ a, (![0, 0] : Fin 2 → Nat) a + S5000x128.size a ≤ S5000x128.size a
  h_S5000x128 : 0 < S5000x128.numel
  reduces_S5000x128_S5000 : S5000x128.Reduces [1] S5000
  shapeCasts_S5000_S5000x1 : S5000.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S100000x128 : S_.BroadcastsInDim S100000x128 (![] : Fin 0 → Fin S100000x128.rank)
  bcast_S_S100000 : S_.BroadcastsInDim S100000 (![] : Fin 0 → Fin S100000.rank)
  shapeCasts_S100000_S100000x1 : S100000.ShapeCasts S100000x1
  shapeCasts_S128_S1x128 : S128.ShapeCasts S1x128
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S50000x128_S1600000x1_S1600000x128_1_0_0_1_wf : ScatterDims.WF S50000x128 S1600000x1 S1600000x128 [1] [0] [0] 1
  scatter_S50000_S1600000x1_S1600000_n_0_0_1_wf : ScatterDims.WF S50000 S1600000x1 S1600000 [] [0] [0] 1
  gather_S50000x128_S1600000x1_S1600000x128_1_0_n_n_0_1_1128_wf : GatherDims.WF S50000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf

abbrev win0_0 : Pipeline.Window sig grid0 :=
  Pipeline.Window.ofSpec (Memref.whole main_arg1) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v29) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v34) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S_ : Shape := ⟨0, ![]⟩
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S100000 : Shape := ⟨1, ![100000]⟩
abbrev S100000x1 : Shape := ⟨2, ![100000, 1]⟩
abbrev S1600000x1 : Shape := ⟨2, ![1600000, 1]⟩
abbrev S1600000x128 : Shape := ⟨2, ![1600000, 128]⟩
abbrev S50000x128 : Shape := ⟨2, ![50000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 71
  | .vmem => 0
  | .smem => 0
  | _ => 0

abbrev bufTy : (tb : Table) → Fin (tcTables nBuf tb) → BufTy
  | .hbm, ⟨0, _⟩ => ⟨S_, .f32⟩
  | .hbm, ⟨1, _⟩ => ⟨S100000x128, .f32⟩
  | .hbm, ⟨2, _⟩ => ⟨S128x128, .f32⟩
  | .hbm, ⟨3, _⟩ => ⟨S128, .f32⟩
  | .hbm, ⟨4, _⟩ => ⟨S1600000, .i32⟩
  | .hbm, ⟨5, _⟩ => ⟨S1600000, .i32⟩
  | .hbm, ⟨6, _⟩ => ⟨S100000x128, .f32⟩
  | .hbm, ⟨7, _⟩ => ⟨S_, .f32⟩
  | .hbm, ⟨8, _⟩ => ⟨S100000, .f32⟩
  | .hbm, ⟨9, _⟩ => ⟨S100000x1, .f32⟩
  | .hbm, ⟨10, _⟩ => ⟨S100000x1, .f32⟩
  | .hbm, ⟨11, _⟩ => ⟨S_, .f32⟩
  | .hbm, ⟨12, _⟩ => ⟨S100000x1, .f32⟩
  | .hbm, ⟨13, _⟩ => ⟨S100000x1, .f32⟩
  | .hbm, ⟨14, _⟩ => ⟨S100000x128, .f32⟩
  | .hbm, ⟨15, _⟩ => ⟨S100000x128, .f32⟩
  | .hbm, ⟨16, _⟩ => ⟨S100000x128, .f32⟩
  | .hbm, ⟨17, _⟩ => ⟨S_, .f32⟩
  | .hbm, ⟨18, _⟩ => ⟨S1600000, .f32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x128, .f32⟩
  | .hbm, ⟨28, _⟩ => ⟨S_, .f32⟩
  | .hbm, ⟨29, _⟩ => ⟨S50000x128, .f32⟩
  | .hbm, ⟨30, _⟩ => ⟨S1600000x1, .i32⟩
  | .hbm, ⟨31, _⟩ => ⟨S50000x128, .f32⟩
  | .hbm, ⟨32, _⟩ => ⟨S_, .f32⟩
  | .hbm, ⟨33, _⟩ => ⟨S50000, .f32⟩
  | .hbm, ⟨34, _⟩ => ⟨S1600000x1, .i32⟩
  | .hbm, ⟨35, _⟩ => ⟨S50000, .f32⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S50000x1, .f32⟩
  | .hbm, ⟨40, _⟩ => ⟨S50000x128, .f32⟩
  | .hbm, ⟨41, _⟩ => ⟨S50000x128, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .f32⟩
  | .hbm, ⟨51, _⟩ => ⟨S_, .f32⟩
  | .hbm, ⟨52, _⟩ => ⟨S100000x128, .f32⟩
  | .hbm, ⟨53, _⟩ => ⟨S1600000x1, .i32⟩
  | .hbm, ⟨54, _⟩ => ⟨S100000x128, .f32⟩
  | .hbm, ⟨55, _⟩ => ⟨S_, .f32⟩
  | .hbm, ⟨56, _⟩ => ⟨S100000, .f32⟩
  | .hbm, ⟨57, _⟩ => ⟨S1600000x1, .i32⟩
  | .hbm, ⟨58, _⟩ => ⟨S100000, .f32⟩
  | .hbm, ⟨59, _⟩ => ⟨S_, .f32⟩
  | .hbm, ⟨60, _⟩ => ⟨S100000, .f32⟩
  | .hbm, ⟨61, _⟩ => ⟨S100000, .f32⟩
  | .hbm, ⟨62, _⟩ => ⟨S100000x1, .f32⟩
  | .hbm, ⟨63, _⟩ => ⟨S100000x128, .f32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | _, _ => ⟨S_, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_c : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_6 : Ref sig .tc := ⟨.hbm, 42, rfl⟩
abbrev main_v28 : Ref sig .tc := ⟨.hbm, 43, rfl⟩
abbrev main_v29 : Ref sig .tc := ⟨.hbm, 44, rfl⟩
abbrev main_c_7 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_9 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_10 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_call0_cst : Ref sig .tc := ⟨.hbm, 68, rfl⟩
abbrev main_call0_v0 : Ref sig .tc := ⟨.hbm, 69, rfl⟩
abbrev main_v49 : Ref sig .tc := ⟨.hbm, 70, rfl⟩

abbrev nD : Nat := 1
abbrev τ : Topo := Topo.v7x

variable {F : FTy → Type} [FloatOps F]

class Facts₀ : Prop where
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S100000x128 : S_.BroadcastsInDim S100000x128 (![] : Fin 0 → Fin S100000x128.rank)
  bcast_S_S100000 : S_.BroadcastsInDim S100000 (![] : Fin 0 → Fin S100000.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S50000x128_S1600000x1_S1600000x128_1_0_0_1_wf : ScatterDims.WF S50000x128 S1600000x1 S1600000x128 [1] [0] [0] 1
  scatter_S50000_S1600000x1_S1600000_n_0_0_1_wf : ScatterDims.WF S50000 S1600000x1 S1600000 [] [0] [0] 1
  gather_S50000x128_S1600000x1_S1600000x128_1_0_n_n_0_1_1128_wf : GatherDims.WF S50000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf

class Facts : Prop extends Facts₀ where

variable [Facts]
-- ==== Proof.Body0.lean ====
/-
  What the first kernel's body stores, read at one entry of its block.

  The body loads a block `x` of 5000 rows of `y` and the whole of `W`, divides each row of `x` by the larger of its
  Euclidean norm and ε, and multiplies by `W` into a zero accumulator. At the ideal instance the two changes of
  float format are the identity and the matrix product is the plain sum over the contracted axis, so entry (p, q) of
  what is stored is `∑ k, x[p,k] / max(√(∑ l, x[p,l]²), ε) · W[k,q]`.
-/
import proofs.«103969_j32263794328073_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- A row's sum of squares: the lane reduction at row `p` is the sum over the 128 lanes. -/
theorem rowsum_apply (v1 : FVec Ideal S5000x128 .f32) (hacc : (0x00000000#32 : BitVec 32) = 0x00000000#32) (p : Fin 5000) :
    multiReduction .add [1] S5000 v1 0x00000000#32 reduces_S5000x128_S5000 (.inl rfl) hacc (ix1 p) = ∑ l : Fin 128, v1 (ix2 p l) := by
  refine (Ideal.multiReduction_add_single v1 0x00000000#32 reduces_S5000x128_S5000 (.inl rfl) hacc (ix1 p)).trans ?_
  exact Finset.sum_congr rfl fun k _ => congrArg v1 (funext fun a => Fin.ext (by match a with | ⟨0, _⟩ => rfl | ⟨1, _⟩ => rfl))

/-- A vector of 5000 entries recast as a column is read at (p, 0) as its entry p. -/
theorem column_apply (v : FVec Ideal S5000 .f32) (p : Fin 5000) :
    shapeCast S5000x1 v shapeCasts_S5000_S5000x1 (ix2 p (0 : Fin 1)) = v (ix1 p) := by
  refine shapeCast_apply v shapeCasts_S5000_S5000x1 (ix2 p (0 : Fin 1)) (ix1 p) ?_
  rw [Shape.rowMajor_val_two, Shape.rowMajor_val_one]
  show p.val = p.val * 1 + 0
  omega

/-- A column broadcast along the lanes is read at (p, k) as the column's entry (p, 0). -/
theorem lanes_apply (v : FVec Ideal S5000x1 .f32) (p : Fin 5000) (k : Fin 128) :
    broadcastTo S5000x128 v broadcasts_S5000x1_S5000x128 (ix2 p k) = v (ix2 p (0 : Fin 1)) :=
  broadcastTo_apply v broadcasts_S5000x1_S5000x128 (ix2 p k) (ix2 p (0 : Fin 1)) (fun a => match a with
    | ⟨0, _⟩ => by show p.val = if (5000 : Nat) = 1 then 0 else p.val; rw [if_neg (by decide)]
    | ⟨1, _⟩ => by show 0 = if (1 : Nat) = 1 then 0 else k.val; rw [if_pos rfl])

theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product into a zero accumulator at (p, q): the sum over the contracted axis of row p of the left operand
    times column q of the right one. -/
theorem product_apply (l : FVec Ideal S5000x128 .bf16) (r : FVec Ideal S128x128 .bf16) (p : Fin 5000) (q : Fin 128) :
    matmul dot_S5000x128_S128x128_S5000x128_1_0_0_1_n_n none l r (constant S5000x128 .f32 0x00000000#32) (ix2 p q) = ∑ k : Fin 128, l (ix2 p k) * r (ix2 k q) := by
  refine (Ideal.matmul_constant_zero_apply dot_S5000x128_S128x128_S5000x128_1_0_0_1_n_n none l r (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- Entry (p, q) of what the body stores, from the block `x` of `y` and `W`. -/
theorem pay_apply (x : Vec Ideal S5000x128 .f32) (w : Vec Ideal S128x128 .f32) (p : Fin 5000) (q : Fin 128) :
    k0_pay1 (F := Ideal) x w (ix2 p q)
      = ∑ k : Fin 128, Ideal.div (x (ix2 p k)) (max (Ideal.sqrt (∑ l : Fin 128, x (ix2 p l) * x (ix2 p l))) (Ideal.ofBits .f32 0x358637BD#32)) * w (ix2 k q) := by
  unfold k0_pay1
  refine (product_apply _ _ p q).trans ?_
  refine Finset.sum_congr rfl fun k _ => ?_
  refine congrArg (· * w (ix2 k q)) ?_
  show Ideal.div (x (ix2 p k)) (broadcastTo S5000x128 _ broadcasts_S5000x1_S5000x128 (ix2 p k)) = _
  rw [lanes_apply]
  show Ideal.div (x (ix2 p k)) (max (Ideal.sqrt (shapeCast S5000x1 _ shapeCasts_S5000_S5000x1 (ix2 p (0 : Fin 1)))) (Ideal.ofBits .f32 0x358637BD#32)) = _
  rw [column_apply, rowsum_apply]
  rfl

end Cert.KernelIdeal.Body

end
-- ==== Proof.Spec.lean ====
/-
  The mathematics both programs compute, index by index over the extended reals.

  Stage one: each row of `y` is divided by the larger of its Euclidean norm and a small constant ε, and the
  normalised rows are multiplied by `W`: `proj y W (r, j) = ∑ k, y[r,k] / max(√(∑ l, y[r,l]²), ε) · W[k,j]`.
  Stage three: a sum array `s`, a degree vector `d` and a bias `b` give `finish s d b (r, j) = max(s[r,j] / max(d[r], 1) + b[j], 0)`.
  Between the two both programs apply one and the same chain of gathers and segment sums, which is never opened.
-/
import Idealize.ShloMosaic.PureOps.Ideal
import Idealize.ShloMosaic.Lib.ValueIdx

noncomputable section

open scoped BigOperators

namespace Cert.Spec

open Idealize.ShloMosaic Idealize.ShloMosaic.ValueIdx

/-- Entry `k` of row `r` of `y` over the larger of the row's Euclidean norm and ε (the f32 nearest 1e-6). -/
def unitRow (y : FVec Ideal ⟨2, ![100000, 128]⟩ .f32) (r : Fin 100000) (k : Fin 128) : EReal :=
  Ideal.div (y (ix2 r k)) (max (Ideal.sqrt (∑ l : Fin 128, y (ix2 r l) * y (ix2 r l))) (Ideal.ofBits .f32 0x358637BD#32))

/-- The normalised rows times `W`. -/
def proj (y : FVec Ideal ⟨2, ![100000, 128]⟩ .f32) (W : FVec Ideal ⟨2, ![128, 128]⟩ .f32) : FVec Ideal ⟨2, ![100000, 128]⟩ .f32 :=
  fun i => ∑ k : Fin 128, unitRow y (i 0) k * W (ix2 k (i 1))

/-- Mean over the degree (at least one), plus the bias, clipped below at zero. -/
def finish (s : FVec Ideal ⟨2, ![100000, 128]⟩ .f32) (d : FVec Ideal ⟨1, ![100000]⟩ .f32) (b : FVec Ideal ⟨1, ![128]⟩ .f32) :
    FVec Ideal ⟨2, ![100000, 128]⟩ .f32 :=
  fun i => max (Ideal.div (s i) (max (d (ix1 (i 0))) (Ideal.ofBits .f32 0x3F800000#32)) + b (ix1 (i 1))) (Ideal.ofBits .f32 0x00000000#32)

/-- The same with the degree as a column and the bias as a row, as the second kernel's windows see them. -/
def finish2 (s : FVec Ideal ⟨2, ![100000, 128]⟩ .f32) (d : FVec Ideal ⟨2, ![100000, 1]⟩ .f32) (b : FVec Ideal ⟨2, ![1, 128]⟩ .f32) :
    FVec Ideal ⟨2, ![100000, 128]⟩ .f32 :=
  fun i => max (Ideal.div (s i) (max (d (ix2 (i 0) (0 : Fin 1))) (Ideal.ofBits .f32 0x3F800000#32)) + b (ix2 (0 : Fin 1) (i 1))) (Ideal.ofBits .f32 0x00000000#32)

end Cert.Spec

end
-- ==== Proof.Region0.lean ====
/-
  The first kernel's output array after its twenty grid points.

  Point `t` loads rows 5000·t … 5000·t+4999 of `y` and all of `W` and writes back the same rows of the output. Entry
  (p, q) of what it writes is `proj y W` at row 5000·t + p, column q: a block of one whole-array function. The
  twenty blocks cover the array (row r lies in block r / 5000), so the array ends at `proj y W`.
-/
import proofs.«103969_j32263794328073_1_alg».proof.Proof.Gen.KernelIdeal.Frame
import proofs.«103969_j32263794328073_1_alg».proof.Proof.Body0
import proofs.«103969_j32263794328073_1_alg».proof.Proof.Spec

set_option maxRecDepth 16384

noncomputable section

open scoped BigOperators

namespace Cert.KernelIdeal.Region0

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-block index of `y`'s and of the output's window is the point, every
    other block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 20 :=
  (by decide +kernel : ∀ t : Fin grid0.N, _)

/-- Entry (p, k) of point `t`'s block of `y` is `y` at row 5000·t + p. -/
theorem read_y (c : Dev nD) (t : Fin cfg0.N) (p : Fin 5000) (k : Fin 128) (r : Fin 100000) (hr : r.val = t.val * 5000 + p.val) :
    iblk0 V c 0 t (ix2 p k) = V c main_arg1 (ix2 r k) := by
  obtain ⟨e0, e1, -, -, -, -, -⟩ := idx_facts t
  show V c main_arg1 (((cfg0.win 0).blk t).view.emb (ix2 p k)) = V c main_arg1 (ix2 r k)
  refine congrArg (V c main_arg1) (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- Every point's block of `W` is `W`. -/
theorem read_w (c : Dev nD) (t : Fin cfg0.N) (k : Fin 128) (q : Fin 128) :
    iblk0 V c 1 t (ix2 k q) = V c main_arg2 (ix2 k q) := by
  obtain ⟨-, -, e2, e3, -, -, -⟩ := idx_facts t
  show V c main_arg2 (((cfg0.win 1).blk t).view.emb (ix2 k q)) = V c main_arg2 (ix2 k q)
  refine congrArg (V c main_arg2) (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- What point `t` writes back is block `t` of `proj y W`. -/
theorem flushed_eq (c : Dev nD) (t : Fin cfg0.N) :
    (dat0 V c).flushed 2 t = ((cfg0.win 2).blk t).view.read (Elt Ideal) (Spec.proj (V c main_arg1) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨-, -, -, -, e4, e5, ht⟩ := idx_facts t
  funext j
  obtain ⟨p, q, rfl⟩ : ∃ (p : Fin 5000) (q : Fin 128), j = ix2 p q := ⟨j 0, j 1, eq_ix2 j⟩
  have hr : t.val * 5000 + p.val < 100000 := by have := p.isLt; omega
  show k0_pay1 (F := Ideal) (iblk0 V c 0 t) (iblk0 V c 1 t) (ix2 p q) = Spec.proj (V c main_arg1) (V c main_arg2) (((cfg0.win 2).blk t).view.emb (ix2 p q))
  have hemb : ((cfg0.win 2).blk t).view.emb (ix2 p q) = ix2 (⟨t.val * 5000 + p.val, hr⟩ : Fin 100000) q := by
    funext a; apply Fin.ext
    match a with
    | ⟨0, _⟩ => show win0_2.index t (0 : Fin 2) * 5000 + 1 * p.val = t.val * 5000 + p.val; omega
    | ⟨1, _⟩ => show win0_2.index t (1 : Fin 2) * 128 + 1 * q.val = q.val; omega
  rw [hemb]
  refine (Body.pay_apply _ _ p q).trans ?_
  unfold Spec.proj Spec.unitRow
  refine Finset.sum_congr rfl fun k _ => ?_
  rw [read_w V c t k q, read_y V c t p k ⟨t.val * 5000 + p.val, hr⟩ rfl]
  refine congrArg (fun z => Ideal.div _ (max (Ideal.sqrt z) _) * _) ?_
  exact Finset.sum_congr rfl fun l _ => by rw [read_y V c t p l ⟨t.val * 5000 + p.val, hr⟩ rfl]

/-- An index of the array is in point `t`'s block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v0).slice (win0_2.rect t)).set ↔ _
  rw [View.set_slice_whole, Rect.mem_set_unit]
  exact Iff.rfl

/-- Row r of the output lies in the block of point r / 5000. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_2 _, ?_⟩
  rw [mem_blk]
  obtain ⟨-, -, -, -, e4, e5, -⟩ := idx_facts ⟨(i 0).val / 5000, by rw [hN]; omega⟩
  intro a
  match a with
  | ⟨0, _⟩ =>
    show win0_2.index _ (0 : Fin 2) * 5000 ≤ (i 0).val ∧ (i 0).val < win0_2.index _ (0 : Fin 2) * 5000 + 5000
    rw [e4]; show (i 0).val / 5000 * 5000 ≤ (i 0).val ∧ (i 0).val < (i 0).val / 5000 * 5000 + 5000; omega
  | ⟨1, _⟩ =>
    show win0_2.index _ (1 : Fin 2) * 128 ≤ (i 1).val ∧ (i 1).val < win0_2.index _ (1 : Fin 2) * 128 + 128
    rw [e5]; omega

/-- The output array after the region: `proj` of the arrays `y` and `W` as the region finds them. -/
theorem final (c : Dev nD) : (dat0 V c).arrAt 2 cfg0.N = Spec.proj (V c main_arg1) (V c main_arg2) :=
  (dat0 V c).arrAt_eq_of_cover 2 (Spec.proj (V c main_arg1) (V c main_arg2)) (fun t _ => flushed_eq V c t) cover

end Cert.KernelIdeal.Region0

end
-- ==== Proof.Body1.lean ====
/-
  What the second kernel's body stores, read at one entry of its block.

  The body loads a block `s` of 5000 rows of the sum array, the matching 5000 entries `d` of the degree column and the
  bias row `b`; entry (p, q) of what it stores is `max(s[p,q] / max(d[p], 1) + b[q], 0)` (the three shape casts are
  casts of a shape to itself).
-/
import proofs.«103969_j32263794328073_1_alg».proof.Proof.Body0
import Idealize.ShloMosaic.Lib.ValueLayout

noncomputable section

open scoped BigOperators

namespace Cert.KernelIdeal.Body

open Cert.KernelIdeal Cert.KernelIdeal.Gen Idealize.ShloMosaic Idealize.ShloMosaic.ValueIdx

/-- Entry (p, q) of what the body stores, from the blocks `s`, `d` and the bias row `b`. -/
theorem pay1_apply (s : Vec Ideal S5000x128 .f32) (d : Vec Ideal S5000x1 .f32) (b : Vec Ideal S1x128 .f32) (p : Fin 5000) (q : Fin 128) :
    k1_pay1 (F := Ideal) s d b (ix2 p q)
      = max (Ideal.div (s (ix2 p q)) (max (d (ix2 p (0 : Fin 1))) (Ideal.ofBits .f32 0x3F800000#32)) + b (ix2 (0 : Fin 1) q)) (Ideal.ofBits .f32 0x00000000#32) := by
  unfold k1_pay1
  rw [shapeCast_self, shapeCast_self, shapeCast_self]
  show max (Ideal.div (s (ix2 p q)) (broadcastTo S5000x128 _ broadcasts_S5000x1_S5000x128 (ix2 p q))
      + broadcastTo S5000x128 b broadcasts_S1x128_S5000x128 (ix2 p q)) (Ideal.ofBits .f32 0x00000000#32) = _
  rw [lanes_apply, broadcastTo_1b_ab_apply]
  rfl

end Cert.KernelIdeal.Body

end
-- ==== Proof.Region1.lean ====
/-
  The second kernel's output array after its twenty grid points.

  Point `t` loads rows 5000·t … 5000·t+4999 of the sum array and of the degree column, and the bias row, and writes
  back the same rows of the output; entry (p, q) of what it writes is `finish2` of the three arrays at row 5000·t + p,
  column q. The twenty blocks cover the array, so it ends at `finish2` of the arrays the region finds.
-/
import proofs.«103969_j32263794328073_1_alg».proof.Proof.Gen.KernelIdeal.Frame
import proofs.«103969_j32263794328073_1_alg».proof.Proof.Body1
import proofs.«103969_j32263794328073_1_alg».proof.Proof.Spec

set_option maxRecDepth 16384

noncomputable section

open scoped BigOperators

namespace Cert.KernelIdeal.Region1

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-block index of the sum array's, the degree column's and the output's
    window is the point, every other block index is zero. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 ∧ t.val < 20 :=
  (by decide +kernel : ∀ t : Fin grid1.N, _)

/-- Entry (p, q) of point `t`'s block of the sum array is the array at row 5000·t + p. -/
theorem read_s (c : Dev nD) (t : Fin cfg1.N) (p : Fin 5000) (q : Fin 128) (r : Fin 100000) (hr : r.val = t.val * 5000 + p.val) :
    iblk1 V c 0 t (ix2 p q) = V c main_v29 (ix2 r q) := by
  obtain ⟨e0, e1, -, -, -, -, -, -, -⟩ := idx_facts t
  show V c main_v29 (((cfg1.win 0).blk t).view.emb (ix2 p q)) = V c main_v29 (ix2 r q)
  refine congrArg (V c main_v29) (funext fun a => Fin.ext ?_)
  match a with
  | ⟨0, _⟩ => show win1_0.index t (0 : Fin 2) * 5000 + 1 * p.val = r.val; omega
  | ⟨1, _⟩ => show win1_0.index t (1 : Fin 2) * 128 + 1 * q.val = q.val; omega

/-- Entry (p, 0) of point `t`'s block of the degree column is the column at row 5000·t + p. -/
theorem read_d (c : Dev nD) (t : Fin cfg1.N) (p : Fin 5000) (r : Fin 100000) (hr : r.val = t.val * 5000 + p.val) :
    iblk1 V c 1 t (ix2 p (0 : Fin 1)) = V c main_v33 (ix2 r (0 : Fin 1)) := by
  obtain ⟨-, -, e2, e3, -, -, -, -, -⟩ := idx_facts t
  show V c main_v33 (((cfg1.win 1).blk t).view.emb (ix2 p (0 : Fin 1))) = V c main_v33 (ix2 r (0 : Fin 1))
  refine congrArg (V c main_v33) (funext fun a => Fin.ext ?_)
  match a with
  | ⟨0, _⟩ => show win1_1.index t (0 : Fin 2) * 5000 + 1 * p.val = r.val; omega
  | ⟨1, _⟩ => show win1_1.index t (1 : Fin 2) * 1 + 1 * 0 = 0; omega

/-- Every point's block of the bias row is the row. -/
theorem read_b (c : Dev nD) (t : Fin cfg1.N) (q : Fin 128) :
    iblk1 V c 2 t (ix2 (0 : Fin 1) q) = V c main_v34 (ix2 (0 : Fin 1) q) := by
  obtain ⟨-, -, -, -, e4, e5, -, -, -⟩ := idx_facts t
  show V c main_v34 (((cfg1.win 2).blk t).view.emb (ix2 (0 : Fin 1) q)) = V c main_v34 (ix2 (0 : Fin 1) q)
  refine congrArg (V c main_v34) (funext fun a => Fin.ext ?_)
  match a with
  | ⟨0, _⟩ => show win1_2.index t (0 : Fin 2) * 1 + 1 * 0 = 0; omega
  | ⟨1, _⟩ => show win1_2.index t (1 : Fin 2) * 128 + 1 * q.val = q.val; omega

/-- What point `t` writes back is block `t` of `finish2` of the three arrays. -/
theorem flushed_eq (c : Dev nD) (t : Fin cfg1.N) :
    (dat1 V c).flushed 3 t = ((cfg1.win 3).blk t).view.read (Elt Ideal) (Spec.finish2 (V c main_v29) (V c main_v33) (V c main_v34)) := by
  show (cfg1.win 3).cut (grid1.coords t) ((dat1 V c).after 3 t) = _
  rw [after1_3]
  unfold out1_3
  rw [View.canon_unit_zero hz]
  simp only [View.ld_unit_zero (S := S5000x128) hz, View.ld_unit_zero (S := S5000x1) hz, View.ld_unit_zero (S := S1x128) hz]
  obtain ⟨-, -, -, -, -, -, e6, e7, ht⟩ := idx_facts t
  funext j
  obtain ⟨p, q, rfl⟩ : ∃ (p : Fin 5000) (q : Fin 128), j = ix2 p q := ⟨j 0, j 1, eq_ix2 j⟩
  have hr : t.val * 5000 + p.val < 100000 := by have := p.isLt; omega
  show k1_pay1 (F := Ideal) (iblk1 V c 0 t) (iblk1 V c 1 t) (iblk1 V c 2 t) (ix2 p q)
    = Spec.finish2 (V c main_v29) (V c main_v33) (V c main_v34) (((cfg1.win 3).blk t).view.emb (ix2 p q))
  have hemb : ((cfg1.win 3).blk t).view.emb (ix2 p q) = ix2 (⟨t.val * 5000 + p.val, hr⟩ : Fin 100000) q := by
    funext a; apply Fin.ext
    match a with
    | ⟨0, _⟩ => show win1_3.index t (0 : Fin 2) * 5000 + 1 * p.val = t.val * 5000 + p.val; omega
    | ⟨1, _⟩ => show win1_3.index t (1 : Fin 2) * 128 + 1 * q.val = q.val; omega
  rw [hemb]
  refine (Body.pay1_apply _ _ _ p q).trans ?_
  unfold Spec.finish2
  rw [read_s V c t p q ⟨t.val * 5000 + p.val, hr⟩ rfl, read_d V c t p ⟨t.val * 5000 + p.val, hr⟩ rfl, read_b V c t q]

/-- An index of the array is in point `t`'s block iff each coordinate is in the block's range on its axis. -/
theorem mem_blk (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v35).slice (win1_3.rect t)).set ↔ _
  rw [View.set_slice_whole, Rect.mem_set_unit]
  exact Iff.rfl

/-- Row r of the output lies in the block of point r / 5000. -/
theorem cover (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 20 := N_1
  refine ⟨⟨(i 0).val / 5000, by rw [hN]; omega⟩, flush1_3 _, ?_⟩
  rw [mem_blk]
  obtain ⟨-, -, -, -, -, -, e6, e7, -⟩ := idx_facts ⟨(i 0).val / 5000, by rw [hN]; omega⟩
  intro a
  match a with
  | ⟨0, _⟩ =>
    show win1_3.index _ (0 : Fin 2) * 5000 ≤ (i 0).val ∧ (i 0).val < win1_3.index _ (0 : Fin 2) * 5000 + 5000
    rw [e6]; show (i 0).val / 5000 * 5000 ≤ (i 0).val ∧ (i 0).val < (i 0).val / 5000 * 5000 + 5000; omega
  | ⟨1, _⟩ =>
    show win1_3.index _ (1 : Fin 2) * 128 ≤ (i 1).val ∧ (i 1).val < win1_3.index _ (1 : Fin 2) * 128 + 128
    rw [e7]; omega

/-- The output array after the region: `finish2` of the three arrays as the region finds them. -/
theorem final (c : Dev nD) : (dat1 V c).arrAt 3 cfg1.N = Spec.finish2 (V c main_v29) (V c main_v33) (V c main_v34) :=
  (dat1 V c).arrAt_eq_of_cover 3 (Spec.finish2 (V c main_v29) (V c main_v33) (V c main_v34)) (fun t _ => flushed_eq V c t) cover

end Cert.KernelIdeal.Region1

end
-- ==== Proof.Mid.lean ====
/-
  The chain of host operations that both programs apply between their first and last stage, carried as two opaque
  functions: `nsum`, the node-to-hyperedge-to-node aggregation (gather the projected rows by node, sum them by
  hyperedge, divide by the hyperedge's degree clipped below at one, gather by hyperedge, sum by node), as a function of
  the projected array and the two index vectors; and `ndeg`, the node degree (a segment sum of ones). Nothing in the
  certificate opens either: both programs apply the same operations to equal values.
-/
import proofs.«103969_j32263794328073_1_alg».proof.Proof.Gen.KernelIdeal
import Idealize.ShloMosaic.PureOps.Ideal

noncomputable section

namespace Cert.KernelIdeal.Mid

open Cert.KernelIdeal Cert.KernelIdeal.Gen Idealize.ShloMosaic

/-- The aggregated sums: gather by node, segment-sum by hyperedge, mean, gather by hyperedge, segment-sum by node. -/
def nsum (xw : FVec Ideal S100000x128 .f32) (a4 a5 : IVec S1600000 32) : FVec Ideal S100000x128 .f32 :=
  Host.scatterAdd (F := Ideal) scatter_S100000x128_S1600000x1_S1600000x128_1_0_0_1 (broadcastInDim S100000x128 ![] bcast_S_S100000x128 (constant (F := Ideal) S_ .f32 0x00000000#32)) (broadcastInDim S1600000x1 ![0] bcast_S1600000_S1600000x1_0 a4) (Host.gather gather_S50000x128_S1600000x1_S1600000x128_1_0_n_n_0_1_1128 (Host.divf (F := Ideal) (Host.scatterAdd (F := Ideal) scatter_S50000x128_S1600000x1_S1600000x128_1_0_0_1 (broadcastInDim S50000x128 ![] bcast_S_S50000x128 (constant (F := Ideal) S_ .f32 0x00000000#32)) (broadcastInDim S1600000x1 ![0] bcast_S1600000_S1600000x1_0 a5) (Host.gather gather_S100000x128_S1600000x1_S1600000x128_1_0_n_n_0_1_1128 xw (broadcastInDim S1600000x1 ![0] bcast_S1600000_S1600000x1_0 (select (cmpi .slt a4 (broadcastInDim S1600000 ![] bcast_S_S1600000 (constantI S_ 32 0#32))) (addi a4 (broadcastInDim S1600000 ![] bcast_S_S1600000 (constantI S_ 32 100000#32))) a4)))) (broadcastInDim S50000x128 ![0, 1] bcast_S50000x1_S50000x128_0_1 (broadcastInDim S50000x1 ![0] bcast_S50000_S50000x1_0 (maximumf (F := Ideal) (Host.scatterAdd (F := Ideal) scatter_S50000_S1600000x1_S1600000_n_0_0_1 (broadcastInDim S50000 ![] bcast_S_S50000 (constant (F := Ideal) S_ .f32 0x00000000#32)) (broadcastInDim S1600000x1 ![0] bcast_S1600000_S1600000x1_0 a5) (broadcastInDim S1600000 ![] bcast_S_S1600000 (constant (F := Ideal) S_ .f32 0x3F800000#32))) (broadcastInDim S50000 ![] bcast_S_S50000 (constant (F := Ideal) S_ .f32 0x3F800000#32)))))) (broadcastInDim S1600000x1 ![0] bcast_S1600000_S1600000x1_0 (select (cmpi .slt a5 (broadcastInDim S1600000 ![] bcast_S_S1600000 (constantI S_ 32 0#32))) (addi a5 (broadcastInDim S1600000 ![] bcast_S_S1600000 (constantI S_ 32 50000#32))) a5)))

/-- The node degrees: a segment sum of ones by node. -/
def ndeg (a4 : IVec S1600000 32) : FVec Ideal S100000 .f32 :=
  Host.scatterAdd (F := Ideal) scatter_S100000_S1600000x1_S1600000_n_0_0_1 (broadcastInDim S100000 ![] bcast_S_S100000 (constant (F := Ideal) S_ .f32 0x00000000#32)) (broadcastInDim S1600000x1 ![0] bcast_S1600000_S1600000x1_0 a4) (broadcastInDim S1600000 ![] bcast_S_S1600000 (constant (F := Ideal) S_ .f32 0x3F800000#32))

end Cert.KernelIdeal.Mid

end
-- ==== Proof.KernelValue.lean ====
/-
  The kernel program's result array as one function of its arguments.

  The first region leaves `proj y W` in its output array; the host operations between the regions turn it into the
  aggregated sums `nsum (proj y W) inc_nodes inc_edges`, the node degrees recast as a column and the bias recast as a
  row; the second region leaves `finish2` of those three, which is `finish` of the sums, the degrees and the bias.
-/
import proofs.«103969_j32263794328073_1_alg».proof.Proof.KernelRun
import proofs.«103969_j32263794328073_1_alg».proof.Proof.Region0
import proofs.«103969_j32263794328073_1_alg».proof.Proof.Region1
import proofs.«103969_j32263794328073_1_alg».proof.Proof.Mid
import Idealize.ShloMosaic.Lib.StableHlo.Run
import Idealize.ShloMosaic.Lib.ValueLayout

set_option maxRecDepth 16384

noncomputable section

open scoped BigOperators

namespace Cert.KernelIdeal.Result

open Cert.KernelIdeal Cert.KernelIdeal.Gen Idealize.ShloMosaic Idealize.ShloMosaic.TcCoe Idealize.ShloMosaic.ValueIdx
open Idealize.SL Idealize.SL.Sem Idealize.ShloMosaic.StableHlo

variable (m : (ℓ : Loc nD τ sig) → Buf (Elt Ideal) ℓ) (ρ : Dev nD → PrngReg)

/-- A degree vector recast as a column and a bias recast as a row enter `finish2` as the vectors enter `finish`. -/
theorem finish2_casts (s : FVec Ideal S100000x128 .f32) (d : FVec Ideal S100000 .f32) (b : FVec Ideal S128 .f32) :
    Spec.finish2 s (shapeCast S100000x1 d shapeCasts_S100000_S100000x1) (shapeCast S1x128 b shapeCasts_S128_S1x128) = Spec.finish s d b := by
  funext i
  unfold Spec.finish2 Spec.finish
  have hd : shapeCast S100000x1 d shapeCasts_S100000_S100000x1 (ix2 (i 0) (0 : Fin 1)) = d (ix1 (i 0)) := by
    refine shapeCast_apply d shapeCasts_S100000_S100000x1 (ix2 (i 0) (0 : Fin 1)) (ix1 (i 0)) ?_
    rw [Shape.rowMajor_val_two, Shape.rowMajor_val_one]
    show (i 0).val = (i 0).val * 1 + 0
    omega
  have hb : shapeCast S1x128 b shapeCasts_S128_S1x128 (ix2 (0 : Fin 1) (i 1)) = b (ix1 (i 1)) := by
    refine shapeCast_apply b shapeCasts_S128_S1x128 (ix2 (0 : Fin 1) (i 1)) (ix1 (i 1)) ?_
    rw [Shape.rowMajor_val_two, Shape.rowMajor_val_one]
    show (i 1).val = 0 * 128 + (i 1).val
    omega
  rw [hd, hb]

/-- After the first region its output array holds `proj y W`. -/
theorem W1_v0 (c : Dev nD) : W1 m ρ c (Proc.devRef .tc main_v0)
    = Spec.proj (m ((c : Thread nD τ).loc main_arg1)) (m ((c : Thread nD τ).loc main_arg2)) :=
  (W1_arr m ρ c 2).trans (Region0.final (V0 m ρ) c)

/-- The first region leaves the index vectors and the bias as launched. -/
theorem W1_a3 (c : Dev nD) : W1 m ρ c (Proc.devRef .tc main_arg3) = m ((c : Thread nD τ).loc main_arg3) :=
  W1_of_ne m ρ c main_arg3 (by decide)
theorem W1_a4 (c : Dev nD) : W1 m ρ c (Proc.devRef .tc main_arg4) = m ((c : Thread nD τ).loc main_arg4) :=
  W1_of_ne m ρ c main_arg4 (by decide)
theorem W1_a5 (c : Dev nD) : W1 m ρ c (Proc.devRef .tc main_arg5) = m ((c : Thread nD τ).loc main_arg5) :=
  W1_of_ne m ρ c main_arg5 (by decide)

/-- The host operations between the regions, read at the three arrays the second region loads. -/
theorem V2_v29 (c : Dev nD) : V2 m ρ c main_v29
    = Mid.nsum (W1 m ρ c (Proc.devRef .tc main_v0)) (W1 m ρ c (Proc.devRef .tc main_arg4)) (W1 m ρ c (Proc.devRef .tc main_arg5)) := by
  show StableHlo.after hostOps1 (W1 m ρ c) (Proc.devRef .tc main_v29) = _
  generalize W1 m ρ c = W
  unfold Mid.nsum
  after_results_simp
theorem V2_v33 (c : Dev nD) : V2 m ρ c main_v33
    = shapeCast S100000x1 (Mid.ndeg (W1 m ρ c (Proc.devRef .tc main_arg4))) shapeCasts_S100000_S100000x1 := by
  show StableHlo.after hostOps1 (W1 m ρ c) (Proc.devRef .tc main_v33) = _
  generalize W1 m ρ c = W
  unfold Mid.ndeg
  after_results_simp
  rfl
theorem V2_v34 (c : Dev nD) : V2 m ρ c main_v34
    = shapeCast S1x128 (W1 m ρ c (Proc.devRef .tc main_arg3)) shapeCasts_S128_S1x128 := by
  show StableHlo.after hostOps1 (W1 m ρ c) (Proc.devRef .tc main_v34) = _
  generalize W1 m ρ c = W
  after_results_simp
  rfl

/-- The result array after the run: `finish` of the aggregated sums of `proj y W`, the node degrees and the bias. -/
theorem result (c : Dev nD) : W3 m ρ c (Proc.devRef .tc main_v35)
    = Spec.finish (Mid.nsum (Spec.proj (m ((c : Thread nD τ).loc main_arg1)) (m ((c : Thread nD τ).loc main_arg2)))
          (m ((c : Thread nD τ).loc main_arg4)) (m ((c : Thread nD τ).loc main_arg5)))
        (Mid.ndeg (m ((c : Thread nD τ).loc main_arg4))) (m ((c : Thread nD τ).loc main_arg3)) := by
  refine (W3_arr m ρ c 3).trans ?_
  rw [Region1.final (V2 m ρ) c, V2_v29, V2_v33, V2_v34, W1_v0, W1_a3, W1_a4, W1_a5]
  exact finish2_casts _ _ _

/-- The kernel program's run with its result named by that function. -/
theorem run : θ_run defs (onTc (τ := τ) (main (F := Ideal))) ⟨m, fun _ => 0, ρ⟩ (fun r => ∀ c : Dev nD,
      r.2.mem ((c.tc : Thread nD τ).loc main_v35)
        = Spec.finish (Mid.nsum (Spec.proj (m ((c : Thread nD τ).loc main_arg1)) (m ((c : Thread nD τ).loc main_arg2)))
              (m ((c : Thread nD τ).loc main_arg4)) (m ((c : Thread nD τ).loc main_arg5)))
            (Mid.ndeg (m ((c : Thread nD τ).loc main_arg4))) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result m ρ c), (h c).2⟩) (run_named m ρ)

end Cert.KernelIdeal.Result

end
-- ==== Proof.RefValue.lean ====
/-
  The reference's result as the same function of its arguments as the kernel program's.

  Its first ten operations compute `proj y W`: the row sum of squares, its square root, the maximum with ε, the
  quotient, and the product with `W` read as a sum over the contracted axis. The operations that follow are the shared
  aggregation chain applied to that array, and the last ones are `finish`: the quotient by the degree clipped below at
  one, plus the bias, and the maximum with zero that jax's relu is.
-/
import proofs.«103969_j32263794328073_1_alg».proof.Proof.Gen.ReferenceIdeal.Read
import proofs.«103969_j32263794328073_1_alg».proof.Proof.Spec
import proofs.«103969_j32263794328073_1_alg».proof.Proof.Mid

noncomputable section

open scoped BigOperators

namespace Cert.ReferenceIdeal.RefValue

open Cert.ReferenceIdeal Cert.ReferenceIdeal.Gen Cert.ReferenceIdeal.Read Idealize.ShloMosaic Idealize.ShloMosaic.ValueIdx

/-- The reference's product array is `proj y W`. -/
theorem proj_eq (x1 : FVec Ideal S100000x128 .f32) (x2 : FVec Ideal S128x128 .f32) :
    val_main_v8 (F := Ideal) x1 x2 = Spec.proj x1 x2 := by
  funext i
  obtain ⟨r, j, rfl⟩ : ∃ (r : Fin 100000) (j : Fin 128), i = ix2 r j := ⟨i 0, i 1, eq_ix2 i⟩
  rw [val_main_v8_apply]
  show _ = ∑ k : Fin 128, Spec.unitRow x1 r k * x2 (ix2 k j)
  unfold Spec.unitRow
  refine Finset.sum_congr rfl fun k _ => ?_
  have el : lidx_main_v8 (ix2 r j) k = ix2 r k := funext fun a => Fin.ext (by match a with | ⟨0, _⟩ => rfl | ⟨1, _⟩ => rfl)
  have er : ridx_main_v8 (ix2 r j) k = ix2 k j := funext fun a => Fin.ext (by match a with | ⟨0, _⟩ => rfl | ⟨1, _⟩ => rfl)
  have es : ∀ l : Fin 128, idx_main_v1 (idx_main_v2 (idx_main_v6 (ix2 r k))) l = ix2 r l := fun l =>
    funext fun a => Fin.ext (by match a with | ⟨0, _⟩ => rfl | ⟨1, _⟩ => rfl)
  rw [el, er, val_main_v7_apply, val_main_v6_apply, val_main_v5_apply, val_main_v4_apply, val_main_cst_0_apply, val_main_v3_apply,
    val_main_v2_apply, val_main_v1_apply, val_main_cst_apply]
  simp only [es, val_main_v0_apply, Ideal.ofBits_def, Ideal.ofBits_zero_f32, zero_add, Ideal.mulf_def, Ideal.hostDivf_def,
    Ideal.maximumf_def, Ideal.hostUnary_sqrt_def]

/-- The reference's aggregated sums are the shared chain applied to its product array. -/
theorem nsum_eq (x1 : FVec Ideal S100000x128 .f32) (x2 : FVec Ideal S128x128 .f32) (x4 x5 : IVec S1600000 32) :
    val_main_v37 (F := Ideal) x1 x2 x4 x5 = Cert.KernelIdeal.Mid.nsum (val_main_v8 (F := Ideal) x1 x2) x4 x5 := rfl

/-- The reference's node degrees are the shared segment sum of ones. -/
theorem ndeg_eq (x4 : IVec S1600000 32) : val_main_v40 (F := Ideal) x4 = Cert.KernelIdeal.Mid.ndeg x4 := rfl

/-- The reference's result is `finish` of the aggregated sums of `proj y W`, the node degrees and the bias. -/
theorem result_eq (x1 : FVec Ideal S100000x128 .f32) (x2 : FVec Ideal S128x128 .f32) (x3 : FVec Ideal S128 .f32) (x4 x5 : IVec S1600000 32) :
    val_main_v49 (F := Ideal) x1 x2 x3 x4 x5
      = Spec.finish (Cert.KernelIdeal.Mid.nsum (Spec.proj x1 x2) x4 x5) (Cert.KernelIdeal.Mid.ndeg x4) x3 := by
  funext i
  have ed : idx_main_v43 (idx_main_v44 i) = ix1 (i 0) := funext fun a => Fin.ext (by match a with | ⟨0, _⟩ => rfl)
  have eb : idx_main_v46 (idx_main_v47 i) = ix1 (i 1) := funext fun a => Fin.ext (by match a with | ⟨0, _⟩ => rfl)
  rw [val_main_v49_apply, val_main_v48_apply, val_main_v45_apply, val_main_v44_apply, val_main_v43_apply, val_main_v42_apply,
    val_main_v41_apply, val_main_cst_10_apply, val_main_v47_apply, val_main_v46_apply, val_main_call0_v0_apply,
    val_main_call0_cst_apply, ed, eb, nsum_eq, ndeg_eq, proj_eq]
  unfold Spec.finish
  simp only [Ideal.ofBits_def, Ideal.addf_def, Ideal.hostDivf_def, Ideal.maximumf_def]
  rfl

end Cert.ReferenceIdeal.RefValue

end
-- ==== Proof.lean ====
/-
  The certificate: a two-kernel hypergraph convolution against its plain reference, equal over the extended reals.

  Both programs compute, for node features `y`, weights `W`, bias `b` and an incidence list (inc_nodes, inc_edges):
  normalise each row of `y` by the larger of its Euclidean norm and ε and multiply by `W` (`Spec.proj`); aggregate
  node → hyperedge → node by gathers and segment sums with a mean over each hyperedge's degree (`Mid.nsum`, the same host
  operations in both programs, never opened); divide by the node degree clipped below at one, add the bias and clip
  below at zero (`Spec.finish`). The kernel program does the first and last stage in row blocks of 5000 on a grid of
  twenty points each, with the matrix product on operands narrowed to bf16; at the ideal instance a change of float
  format is the identity and the blockwise product is the row-by-row sum the reference's `dot_general` is, so no law of
  arithmetic beyond re-indexing sums is used and the inputs' finiteness is never opened.

  The three frames are the generated ones (the reference's is its generated run with the result dropped); the
  idealization rewrote nothing, so `preserves` is trivial; `algebraic` puts the kernel program's run (its result named
  by `KernelValue`) beside the reference's generated run read through `RefValue`.
-/
import proofs.«103969_j32263794328073_1_alg».proof.Defs
import proofs.«103969_j32263794328073_1_alg».proof.Proof.Gen.Kernel
import proofs.«103969_j32263794328073_1_alg».proof.Proof.Gen.Kernel.Skeleton
import proofs.«103969_j32263794328073_1_alg».proof.Proof.Gen.Kernel.Launch
import proofs.«103969_j32263794328073_1_alg».proof.Proof.Gen.Kernel.Points
import proofs.«103969_j32263794328073_1_alg».proof.Proof.Gen.Kernel.Frame
import proofs.«103969_j32263794328073_1_alg».proof.Proof.Gen.KernelIdeal
import proofs.«103969_j32263794328073_1_alg».proof.Proof.Gen.KernelIdeal.Skeleton
import proofs.«103969_j32263794328073_1_alg».proof.Proof.Gen.KernelIdeal.Launch
import proofs.«103969_j32263794328073_1_alg».proof.Proof.Gen.KernelIdeal.Points
import proofs.«103969_j32263794328073_1_alg».proof.Proof.Gen.KernelIdeal.Frame
import proofs.«103969_j32263794328073_1_alg».proof.Proof.Gen.ReferenceIdeal
import proofs.«103969_j32263794328073_1_alg».proof.Proof.Gen.ReferenceIdeal.Run
import proofs.«103969_j32263794328073_1_alg».proof.Proof.Gen.ReferenceIdeal.Read
import proofs.«103969_j32263794328073_1_alg».proof.Proof.Gen.Pre_finite_inputs
import proofs.«103969_j32263794328073_1_alg».proof.Proof.KernelValue
import proofs.«103969_j32263794328073_1_alg».proof.Proof.RefValue
import Idealize.ShloMosaic.Adequacy
import Idealize.ShloMosaic.Init

noncomputable section

namespace Cert.Proof

open Idealize.ShloMosaic Idealize.SL.Sem Cert.Kernel

/-- From memories agreeing on the arguments both programs end with the result array at `finish (nsum (proj y W) …) …`
    of the arguments. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨-, h1, h2, h3, h4, h5⟩ := hagree c
  rw [Cert.ReferenceIdeal.Read.val_main_v49_eq, Cert.ReferenceIdeal.RefValue.result_eq, h1, h2, h3, h4, h5]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
